-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x43 : Shape := ⟨2, ![262144, 43]⟩
abbrev S4x43x43 : Shape := ⟨3, ![4, 43, 43]⟩
abbrev S4x43 : Shape := ⟨2, ![4, 43]⟩
abbrev S_ : Shape := ⟨0, ![]⟩

class Facts : Prop where
  bcast_S_S262144x43 : S_.BroadcastsInDim S262144x43 (![] : Fin 0 → Fin S262144x43.rank)
  reducesTo_S262144x43_S_d0_1 : S262144x43.ReducesTo [0, 1] S_
  h_S_ : 0 < S_.numel
  bcast_S_S4x43x43 : S_.BroadcastsInDim S4x43x43 (![] : Fin 0 → Fin S4x43x43.rank)
  reducesTo_S4x43x43_S_d0_1_2 : S4x43x43.ReducesTo [0, 1, 2] S_
  bcast_S_S4x43 : S_.BroadcastsInDim S4x43 (![] : Fin 0 → Fin S4x43.rank)
  reducesTo_S4x43_S_d0_1 : S4x43.ReducesTo [0, 1] S_

variable [Facts]

def fn_part1 {F : FTy → Type} [FloatOps F] (main_arg4 : FVec F S4x43 .f32) (main_arg5 : FVec F S4x43x43 .f32) (main_arg6 : FVec F S4x43 .f32) (main_v13 : IVec S_ 1) (main_v16 : IVec S4x43x43 1) : IVec S_ 1 :=
  let main_c_5 : IVec S_ 1 := constantI S_ 1 1#1
  let main_v17 : IVec S_ 1 := (fun x v => Host.reduce IntOp.andi x v reducesTo_S4x43x43_S_d0_1_2 h_S_) main_v16 main_c_5
  let main_v18 : IVec S_ 1 := andi main_v13 main_v17
  let main_v19 : FVec F S4x43 .f32 := Host.absf main_arg4
  let main_cst_6 : FVec F S_ .f32 := constant S_ .f32 0x7F800000#32
  let main_v20 : FVec F S4x43 .f32 := broadcastInDim S4x43 ![] bcast_S_S4x43 main_cst_6
  let main_v21 : IVec S4x43 1 := cmpf .olt main_v19 main_v20
  let main_c_7 : IVec S_ 1 := constantI S_ 1 1#1
  let main_v22 : IVec S_ 1 := (fun x v => Host.reduce IntOp.andi x v reducesTo_S4x43_S_d0_1 h_S_) main_v21 main_c_7
  let main_v23 : IVec S_ 1 := andi main_v18 main_v22
  let main_v24 : FVec F S4x43x43 .f32 := Host.absf main_arg5
  let main_cst_8 : FVec F S_ .f32 := constant S_ .f32 0x7F800000#32
  let main_v25 : FVec F S4x43x43 .f32 := broadcastInDim S4x43x43 ![] bcast_S_S4x43x43 main_cst_8
  let main_v26 : IVec S4x43x43 1 := cmpf .olt main_v24 main_v25
  let main_c_9 : IVec S_ 1 := constantI S_ 1 1#1
  let main_v27 : IVec S_ 1 := (fun x v => Host.reduce IntOp.andi x v reducesTo_S4x43x43_S_d0_1_2 h_S_) main_v26 main_c_9
  let main_v28 : IVec S_ 1 := andi main_v23 main_v27
  let main_v29 : FVec F S4x43 .f32 := Host.absf main_arg6
  let main_cst_10 : FVec F S_ .f32 := constant S_ .f32 0x7F800000#32
  let main_v30 : FVec F S4x43 .f32 := broadcastInDim S4x43 ![] bcast_S_S4x43 main_cst_10
  let main_v31 : IVec S4x43 1 := cmpf .olt main_v29 main_v30
  let main_c_11 : IVec S_ 1 := constantI S_ 1 1#1
  let main_v32 : IVec S_ 1 := (fun x v => Host.reduce IntOp.andi x v reducesTo_S4x43_S_d0_1 h_S_) main_v31 main_c_11
  let main_v33 : IVec S_ 1 := andi main_v28 main_v32
  main_v33

def fn {F : FTy → Type} [FloatOps F] (main_arg0 : FVec F S262144x43 .f32) (main_arg1 : FVec F S262144x43 .f32) (main_arg2 : FVec F S262144x43 .f32) (main_arg3 : FVec F S4x43x43 .f32) (main_arg4 : FVec F S4x43 .f32) (main_arg5 : FVec F S4x43x43 .f32) (main_arg6 : FVec F S4x43 .f32) : IVec S_ 1 :=
  let main_v0 : FVec F S262144x43 .f32 := Host.absf main_arg0
  let main_cst : FVec F S_ .f32 := constant S_ .f32 0x7F800000#32
  let main_v1 : FVec F S262144x43 .f32 := broadcastInDim S262144x43 ![] bcast_S_S262144x43 main_cst
  let main_v2 : IVec S262144x43 1 := cmpf .olt main_v0 main_v1
  let main_c : IVec S_ 1 := constantI S_ 1 1#1
  let main_v3 : IVec S_ 1 := (fun x v => Host.reduce IntOp.andi x v reducesTo_S262144x43_S_d0_1 h_S_) main_v2 main_c
  let main_v4 : FVec F S262144x43 .f32 := Host.absf main_arg1
  let main_cst_0 : FVec F S_ .f32 := constant S_ .f32 0x7F800000#32
  let main_v5 : FVec F S262144x43 .f32 := broadcastInDim S262144x43 ![] bcast_S_S262144x43 main_cst_0
  let main_v6 : IVec S262144x43 1 := cmpf .olt main_v4 main_v5
  let main_c_1 : IVec S_ 1 := constantI S_ 1 1#1
  let main_v7 : IVec S_ 1 := (fun x v => Host.reduce IntOp.andi x v reducesTo_S262144x43_S_d0_1 h_S_) main_v6 main_c_1
  let main_v8 : IVec S_ 1 := andi main_v3 main_v7
  let main_v9 : FVec F S262144x43 .f32 := Host.absf main_arg2
  let main_cst_2 : FVec F S_ .f32 := constant S_ .f32 0x7F800000#32
  let main_v10 : FVec F S262144x43 .f32 := broadcastInDim S262144x43 ![] bcast_S_S262144x43 main_cst_2
  let main_v11 : IVec S262144x43 1 := cmpf .olt main_v9 main_v10
  let main_c_3 : IVec S_ 1 := constantI S_ 1 1#1
  let main_v12 : IVec S_ 1 := (fun x v => Host.reduce IntOp.andi x v reducesTo_S262144x43_S_d0_1 h_S_) main_v11 main_c_3
  let main_v13 : IVec S_ 1 := andi main_v8 main_v12
  let main_v14 : FVec F S4x43x43 .f32 := Host.absf main_arg3
  let main_cst_4 : FVec F S_ .f32 := constant S_ .f32 0x7F800000#32
  let main_v15 : FVec F S4x43x43 .f32 := broadcastInDim S4x43x43 ![] bcast_S_S4x43x43 main_cst_4
  let main_v16 : IVec S4x43x43 1 := cmpf .olt main_v14 main_v15
  fn_part1 (F := F) main_arg4 main_arg5 main_arg6 main_v13 main_v16
-- ==== Kernel.lean ====
abbrev S262144x43 : Shape := ⟨2, ![262144, 43]⟩
abbrev S4x43x43 : Shape := ⟨3, ![4, 43, 43]⟩
abbrev S4x43 : Shape := ⟨2, ![4, 43]⟩
abbrev S2048x43 : Shape := ⟨2, ![2048, 43]⟩
abbrev S1x43x43 : Shape := ⟨3, ![1, 43, 43]⟩
abbrev S43x43 : Shape := ⟨2, ![43, 43]⟩
abbrev S1x43 : Shape := ⟨2, ![1, 43]⟩
abbrev S43 : Shape := ⟨1, ![43]⟩

abbrev nBuf : Space → Nat
  | .hbm => 10
  | .vmem => 12
  | .smem => 0
  | _ => 0

abbrev bufTy : (tb : Table) → Fin (tcTables nBuf tb) → BufTy
  | .hbm, ⟨0, _⟩ => ⟨S262144x43, .f32⟩
  | .hbm, ⟨1, _⟩ => ⟨S262144x43, .f32⟩
  | .hbm, ⟨2, _⟩ => ⟨S262144x43, .f32⟩
  | .hbm, ⟨3, _⟩ => ⟨S4x43x43, .f32⟩
  | .hbm, ⟨4, _⟩ => ⟨S4x43, .f32⟩
  | .hbm, ⟨5, _⟩ => ⟨S4x43x43, .f32⟩
  | .hbm, ⟨6, _⟩ => ⟨S4x43, .f32⟩
  | .hbm, ⟨7, _⟩ => ⟨S4x43x43, .f32⟩
  | .hbm, ⟨8, _⟩ => ⟨S4x43x43, .f32⟩
  | .hbm, ⟨9, _⟩ => ⟨S262144x43, .f32⟩
  | .local _ .vmem, ⟨0, _⟩ => ⟨S2048x43, .f32⟩
  | .local _ .vmem, ⟨1, _⟩ => ⟨S2048x43, .f32⟩
  | .local _ .vmem, ⟨2, _⟩ => ⟨S2048x43, .f32⟩
  | .local _ .vmem, ⟨3, _⟩ => ⟨S2048x43, .f32⟩
  | .local _ .vmem, ⟨4, _⟩ => ⟨S2048x43, .f32⟩
  | .local _ .vmem, ⟨5, _⟩ => ⟨S2048x43, .f32⟩
  | .local _ .vmem, ⟨6, _⟩ => ⟨S4x43x43, .f32⟩
  | .local _ .vmem, ⟨7, _⟩ => ⟨S4x43, .f32⟩
  | .local _ .vmem, ⟨8, _⟩ => ⟨S4x43x43, .f32⟩
  | .local _ .vmem, ⟨9, _⟩ => ⟨S4x43, .f32⟩
  | .local _ .vmem, ⟨10, _⟩ => ⟨S2048x43, .f32⟩
  | .local _ .vmem, ⟨11, _⟩ => ⟨S2048x43, .f32⟩
  | _, _ => ⟨S262144x43, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x43 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x43 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x43 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x43x43 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x43 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x43x43 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x43 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x43 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4x43x43_S4x43x43_0_2_1 : S4x43x43.Transposes [0, 2, 1] S4x43x43
  inb_S2048x43_S2048x43_0_0 : ∀ a, (![0, 0] : Fin 2 → Nat) a + S2048x43.size a ≤ S2048x43.size a
  h_S2048x43 : 0 < S2048x43.numel
  bitsLt_bf16_f32 : FTy.bits .bf16 < FTy.bits .f32
  inb_S4x43x43_S1x43x43_0_0_0 : ∀ a, (![0, 0, 0] : Fin 3 → Nat) a + S1x43x43.size a ≤ S4x43x43.size a
  h_S1x43x43 : 0 < S1x43x43.numel
  shapeCasts_S1x43x43_S43x43 : S1x43x43.ShapeCasts S43x43
  inb_S4x43_S1x43_0_0 : ∀ a, (![0, 0] : Fin 2 → Nat) a + S1x43.size a ≤ S4x43.size a
  h_S1x43 : 0 < S1x43.numel
  shapeCasts_S1x43_S43 : S1x43.ShapeCasts S43
  shapeCasts_S43_S1x43 : S43.ShapeCasts S1x43
  broadcasts_S1x43_S2048x43 : S1x43.Broadcasts S2048x43
  inb_S4x43x43_S1x43x43_1_0_0 : ∀ a, (![1, 0, 0] : Fin 3 → Nat) a + S1x43x43.size a ≤ S4x43x43.size a
  inb_S4x43_S1x43_1_0 : ∀ a, (![1, 0] : Fin 2 → Nat) a + S1x43.size a ≤ S4x43.size a
  inb_S4x43x43_S1x43x43_2_0_0 : ∀ a, (![2, 0, 0] : Fin 3 → Nat) a + S1x43x43.size a ≤ S4x43x43.size a
  inb_S4x43_S1x43_2_0 : ∀ a, (![2, 0] : Fin 2 → Nat) a + S1x43.size a ≤ S4x43.size a
  inb_S4x43x43_S1x43x43_3_0_0 : ∀ a, (![3, 0, 0] : Fin 3 → Nat) a + S1x43x43.size a ≤ S4x43x43.size a
  inb_S4x43_S1x43_3_0 : ∀ a, (![3, 0] : Fin 2 → Nat) a + S1x43.size a ≤ S4x43.size a
  dot_S2048x43_S43x43_S2048x43_1_0_0_1_n_n_wf : DotDims.WF S2048x43 S43x43 S2048x43 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x43.size a ≤ S262144x43.size a
  hwx0_0 : ∀ i : grid0.Coords, EltTy.bits .f32 = 32 ∨ (Rect.block (s := S262144x43) S2048x43.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x43.size a ≤ S262144x43.size a
  hwx0_1 : ∀ i : grid0.Coords, EltTy.bits .f32 = 32 ∨ (Rect.block (s := S262144x43) S2048x43.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x43.size a ≤ S262144x43.size a
  hwx0_2 : ∀ i : grid0.Coords, EltTy.bits .f32 = 32 ∨ (Rect.block (s := S262144x43) S2048x43.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x43x43.size a ≤ S4x43x43.size a
  hwx0_3 : ∀ i : grid0.Coords, EltTy.bits .f32 = 32 ∨ (Rect.block (s := S4x43x43) S4x43x43.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x43.size a ≤ S4x43.size a
  hwx0_4 : ∀ i : grid0.Coords, EltTy.bits .f32 = 32 ∨ (Rect.block (s := S4x43) S4x43.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x43x43.size a ≤ S4x43x43.size a
  hwx0_5 : ∀ i : grid0.Coords, EltTy.bits .f32 = 32 ∨ (Rect.block (s := S4x43x43) S4x43x43.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x43.size a ≤ S4x43.size a
  hwx0_6 : ∀ i : grid0.Coords, EltTy.bits .f32 = 32 ∨ (Rect.block (s := S4x43) S4x43.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x43.size a ≤ S262144x43.size a
  hwx0_7 : ∀ i : grid0.Coords, EltTy.bits .f32 = 32 ∨ (Rect.block (s := S262144x43) S2048x43.size (cc0_transform_7 i) (hinb0_7 i)).WholeWords (EltTy.packing .f32)

variable [Facts₀]

def dot_S2048x43_S43x43_S2048x43_1_0_0_1_n_n : DotDims S2048x43 S43x43 S2048x43 where
  lhsContracting := [1]
  rhsContracting := [0]
  lhsNonContracting := [0]
  rhsNonContracting := [1]
  lhsBatch := []
  rhsBatch := []
  wf := dot_S2048x43_S43x43_S2048x43_1_0_0_1_n_n_wf

abbrev win0_0 : Pipeline.Window sig grid0 :=
  Pipeline.Window.ofSpec (Memref.whole main_arg0) S2048x43.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x43.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x43.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x43x43.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x43.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4x43x43.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x43.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S2048x43.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x43 : Shape := ⟨2, ![262144, 43]⟩
abbrev S4x43x43 : Shape := ⟨3, ![4, 43, 43]⟩
abbrev S4x43 : Shape := ⟨2, ![4, 43]⟩
abbrev S4x43x262144 : Shape := ⟨3, ![4, 43, 262144]⟩
abbrev S4x262144x43 : Shape := ⟨3, ![4, 262144, 43]⟩
abbrev S4x1x43 : Shape := ⟨3, ![4, 1, 43]⟩
abbrev S1x262144x43 : Shape := ⟨3, ![1, 262144, 43]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S262144x43, .f32⟩
  | .hbm, ⟨1, _⟩ => ⟨S262144x43, .f32⟩
  | .hbm, ⟨2, _⟩ => ⟨S262144x43, .f32⟩
  | .hbm, ⟨3, _⟩ => ⟨S4x43x43, .f32⟩
  | .hbm, ⟨4, _⟩ => ⟨S4x43, .f32⟩
  | .hbm, ⟨5, _⟩ => ⟨S4x43x43, .f32⟩
  | .hbm, ⟨6, _⟩ => ⟨S4x43, .f32⟩
  | .hbm, ⟨7, _⟩ => ⟨S4x43x262144, .f32⟩
  | .hbm, ⟨8, _⟩ => ⟨S4x262144x43, .f32⟩
  | .hbm, ⟨9, _⟩ => ⟨S4x1x43, .f32⟩
  | .hbm, ⟨10, _⟩ => ⟨S4x262144x43, .f32⟩
  | .hbm, ⟨11, _⟩ => ⟨S4x262144x43, .f32⟩
  | .hbm, ⟨12, _⟩ => ⟨S4x43x262144, .f32⟩
  | .hbm, ⟨13, _⟩ => ⟨S4x262144x43, .f32⟩
  | .hbm, ⟨14, _⟩ => ⟨S4x1x43, .f32⟩
  | .hbm, ⟨15, _⟩ => ⟨S4x262144x43, .f32⟩
  | .hbm, ⟨16, _⟩ => ⟨S4x262144x43, .f32⟩
  | .hbm, ⟨17, _⟩ => ⟨S4x262144x43, .f32⟩
  | .hbm, ⟨18, _⟩ => ⟨S1x262144x43, .f32⟩
  | .hbm, ⟨19, _⟩ => ⟨S262144x43, .f32⟩
  | .hbm, ⟨20, _⟩ => ⟨S262144x43, .f32⟩
  | .hbm, ⟨21, _⟩ => ⟨S262144x43, .f32⟩
  | .hbm, ⟨22, _⟩ => ⟨S_, .f32⟩
  | .hbm, ⟨23, _⟩ => ⟨S262144x43, .f32⟩
  | .hbm, ⟨24, _⟩ => ⟨S262144x43, .f32⟩
  | .hbm, ⟨25, _⟩ => ⟨S_, .f32⟩
  | .hbm, ⟨26, _⟩ => ⟨S262144x43, .f32⟩
  | .hbm, ⟨27, _⟩ => ⟨S262144x43, .f32⟩
  | .hbm, ⟨28, _⟩ => ⟨S1x262144x43, .f32⟩
  | .hbm, ⟨29, _⟩ => ⟨S262144x43, .f32⟩
  | .hbm, ⟨30, _⟩ => ⟨S262144x43, .f32⟩
  | .hbm, ⟨31, _⟩ => ⟨S262144x43, .f32⟩
  | .hbm, ⟨32, _⟩ => ⟨S_, .f32⟩
  | .hbm, ⟨33, _⟩ => ⟨S262144x43, .f32⟩
  | .hbm, ⟨34, _⟩ => ⟨S262144x43, .f32⟩
  | .hbm, ⟨35, _⟩ => ⟨S_, .f32⟩
  | .hbm, ⟨36, _⟩ => ⟨S262144x43, .f32⟩
  | .hbm, ⟨37, _⟩ => ⟨S262144x43, .f32⟩
  | .hbm, ⟨38, _⟩ => ⟨S1x262144x43, .f32⟩
  | .hbm, ⟨39, _⟩ => ⟨S262144x43, .f32⟩
  | .hbm, ⟨40, _⟩ => ⟨S262144x43, .f32⟩
  | .hbm, ⟨41, _⟩ => ⟨S1x262144x43, .f32⟩
  | .hbm, ⟨42, _⟩ => ⟨S262144x43, .f32⟩
  | .hbm, ⟨43, _⟩ => ⟨S262144x43, .f32⟩
  | .hbm, ⟨44, _⟩ => ⟨S262144x43, .f32⟩
  | .hbm, ⟨45, _⟩ => ⟨S_, .f32⟩
  | .hbm, ⟨46, _⟩ => ⟨S262144x43, .f32⟩
  | .hbm, ⟨47, _⟩ => ⟨S262144x43, .f32⟩
  | .hbm, ⟨48, _⟩ => ⟨S_, .f32⟩
  | .hbm, ⟨49, _⟩ => ⟨S262144x43, .f32⟩
  | .hbm, ⟨50, _⟩ => ⟨S262144x43, .f32⟩
  | .hbm, ⟨51, _⟩ => ⟨S262144x43, .f32⟩
  | .hbm, ⟨52, _⟩ => ⟨S262144x43, .f32⟩
  | .hbm, ⟨53, _⟩ => ⟨S262144x43, .f32⟩
  | .hbm, ⟨54, _⟩ => ⟨S262144x43, .f32⟩
  | .hbm, ⟨55, _⟩ => ⟨S262144x43, .f32⟩
  | _, _ => ⟨S262144x43, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S4x43x262144_S4x262144x43_0_2_1 : S4x43x262144.Transposes [0, 2, 1] S4x262144x43
  bcast_S4x43_S4x1x43_0_2 : S4x43.BroadcastsInDim S4x1x43 (![0, 2] : Fin 2 → Fin S4x1x43.rank)
  bcast_S4x1x43_S4x262144x43_0_1_2 : S4x1x43.BroadcastsInDim S4x262144x43 (![0, 1, 2] : Fin 3 → Fin S4x262144x43.rank)
  slices_S4x262144x43_S1x262144x43_0_0_0 : S4x262144x43.Slices ![0, 0, 0] S1x262144x43
  shapeCasts_S1x262144x43_S262144x43 : S1x262144x43.ShapeCasts S262144x43
  bcast_S_S262144x43 : S_.BroadcastsInDim S262144x43 (![] : Fin 0 → Fin S262144x43.rank)
  slices_S4x262144x43_S1x262144x43_1_0_0 : S4x262144x43.Slices ![1, 0, 0] S1x262144x43
  slices_S4x262144x43_S1x262144x43_2_0_0 : S4x262144x43.Slices ![2, 0, 0] S1x262144x43
  slices_S4x262144x43_S1x262144x43_3_0_0 : S4x262144x43.Slices ![3, 0, 0] S1x262144x43
  dot_S4x43x43_S262144x43_S4x43x262144_2_1_01_0_n_n_wf : DotDims.WF S4x43x43 S262144x43 S4x43x262144 [2] [1] [0, 1] [0] [] []

variable [Facts₀]

def dot_S4x43x43_S262144x43_S4x43x262144_2_1_01_0_n_n : DotDims S4x43x43 S262144x43 S4x43x262144 where
  lhsContracting := [2]
  rhsContracting := [1]
  lhsNonContracting := [0, 1]
  rhsNonContracting := [0]
  lhsBatch := []
  rhsBatch := []
  wf := dot_S4x43x43_S262144x43_S4x43x262144_2_1_01_0_n_n_wf

class Facts : Prop extends Facts₀ where

variable [Facts]
-- ==== Proof.Cell.lean ====
/-
  The mathematics of one LSTM cell step over 262144 rows of 43 features, with the four gates (input, forget,
  candidate, output) stacked on a leading axis of the weights and biases.

  For gate g, row b and output feature o the PRE-ACTIVATION is
      pre g b o = (Σ_d Wx[g,o,d] · x[b,d] + bx[g,o]) + (Σ_d Wh[g,o,d] · h[b,d] + bh[g,o]),
  and the new hidden state is
      h'[b,o] = σ(pre 3) · tanh (σ(pre 1) · c[b,o] + σ(pre 0) · tanh (pre 2)),
  σ the logistic function. Everything is read on the extended reals, where + and · are commutative and
  associative: that is all the two arrangements of the pre-activation below need (no distributivity, no
  cancellation, hence no finiteness).
-/
import Idealize.ShloMosaic.PureOps.Ideal
import Idealize.ShloMosaic.Lib.ValueIdx

noncomputable section

open scoped BigOperators

namespace Cert.Lstm

open Idealize.ShloMosaic Idealize.ShloMosaic.ValueIdx

/-- The activations' shape: 262144 rows of 43 features. -/
abbrev Rows : Shape := ⟨2, ![262144, 43]⟩
/-- The stacked weights: gate, output feature, input feature. -/
abbrev Wts : Shape := ⟨3, ![4, 43, 43]⟩
/-- The stacked biases: gate, output feature. -/
abbrev Bias : Shape := ⟨2, ![4, 43]⟩

/-- Gate `g`'s pre-activation at row `b`, output feature `o`: the x-path's affine map plus the h-path's. -/
def preact (x h : Rows.Idx → EReal) (Wx : Wts.Idx → EReal) (bx : Bias.Idx → EReal) (Wh : Wts.Idx → EReal) (bh : Bias.Idx → EReal)
    (g : Fin 4) (b : Fin 262144) (o : Fin 43) : EReal :=
  ((∑ d : Fin 43, Wx (ix3 g o d) * x (ix2 b d)) + bx (ix2 g o)) + ((∑ d : Fin 43, Wh (ix3 g o d) * h (ix2 b d)) + bh (ix2 g o))

/-- The gating: from the four pre-activations (input, forget, candidate, output) and the old cell state, the new
    hidden state. -/
def gated (pI pF pG pO c : EReal) : EReal :=
  Ideal.logistic pO * Ideal.tanh (Ideal.logistic pF * c + Ideal.logistic pI * Ideal.tanh pG)

/-- The new hidden state, index by index. -/
def hNew (x h c : Rows.Idx → EReal) (Wx : Wts.Idx → EReal) (bx : Bias.Idx → EReal) (Wh : Wts.Idx → EReal) (bh : Bias.Idx → EReal) :
    Rows.Idx → EReal := fun i =>
  gated (preact x h Wx bx Wh bh 0 (i 0) (i 1)) (preact x h Wx bx Wh bh 1 (i 0) (i 1))
    (preact x h Wx bx Wh bh 2 (i 0) (i 1)) (preact x h Wx bx Wh bh 3 (i 0) (i 1)) (c i)

/-- The other arrangement of the pre-activation — activations on the left of each product, the two matrix products
    added first and the two biases after — is the same extended real: products commute, and the four summands are
    regrouped by associativity and commutativity of addition. -/
theorem preact_of_products_first (x h : Rows.Idx → EReal) (Wx : Wts.Idx → EReal) (bx : Bias.Idx → EReal) (Wh : Wts.Idx → EReal)
    (bh : Bias.Idx → EReal) (g : Fin 4) (b : Fin 262144) (o : Fin 43) :
    (((∑ d : Fin 43, x (ix2 b d) * Wx (ix3 g o d)) + (∑ d : Fin 43, h (ix2 b d) * Wh (ix3 g o d))) + bx (ix2 g o)) + bh (ix2 g o)
      = preact x h Wx bx Wh bh g b o := by
  unfold preact
  have e1 : ∀ d : Fin 43, x (ix2 b d) * Wx (ix3 g o d) = Wx (ix3 g o d) * x (ix2 b d) := fun d => mul_comm _ _
  have e2 : ∀ d : Fin 43, h (ix2 b d) * Wh (ix3 g o d) = Wh (ix3 g o d) * h (ix2 b d) := fun d => mul_comm _ _
  rw [Finset.sum_congr rfl (fun d _ => e1 d), Finset.sum_congr rfl (fun d _ => e2 d), add_assoc, add_add_add_comm]

/-- The logistic function spelt as the quotient `1 / (1 + e^(-p))` is the logistic function. -/
theorem logistic_as_quotient (p : EReal) : Ideal.div 1 (1 + Ideal.exp (-p)) = Ideal.logistic p := rfl

end Cert.Lstm

end
-- ==== Proof.KernelGate.lean ====
/-
  What the kernel body leaves in its output tile, read at one entry.

  On a tile of 2048 rows the body forms, gate by gate, the two matrix products x·Wxᵀ[g] and h·Whᵀ[g] (operands
  narrowed to bf16, which on the extended reals changes nothing; accumulated into zero), adds them, then adds the
  two bias rows broadcast over the tile: at (r,o) that is `tileGate`. The gating is pointwise. The weight slab of
  gate g is a [1,43,43] load viewed [43,43], the bias row a [1,43] load viewed [43] and back.
-/
import proofs.«103777_j37993280700890_1_alg».proof.Proof.Gen.KernelIdeal.Frame
import proofs.«103777_j37993280700890_1_alg».proof.Proof.Cell
import Idealize.ShloMosaic.Lib.Pipeline.Value
import Idealize.ShloMosaic.Lib.ValueIdx
import Idealize.ShloMosaic.PureOps.Ideal.Laws

noncomputable section

open scoped BigOperators

namespace Cert.Lstm.Kern

open Cert.KernelIdeal Cert.KernelIdeal.Gen Idealize.ShloMosaic Idealize.ShloMosaic.TcCoe Idealize.ShloMosaic.ValueIdx Cert.Lstm

/-! ## The tile's matrix product at an entry -/

theorem lhs_row (i : S2048x43.Idx) (q : dot_S2048x43_S43x43_S2048x43_1_0_0_1_n_n.contr.Idx) :
    (dot_S2048x43_S43x43_S2048x43_1_0_0_1_n_n.lhsIdx i q 0).val = (i 0).val := by
  unfold DotDims.lhsIdx
  rw [dif_neg (show ¬(0 : Fin S2048x43.rank) ∈ dot_S2048x43_S43x43_S2048x43_1_0_0_1_n_n.lhsBatch by decide), dif_pos (show (0 : Fin S2048x43.rank) ∈ dot_S2048x43_S43x43_S2048x43_1_0_0_1_n_n.lhsNonContracting by decide)]
  rfl
theorem lhs_contracted (i : S2048x43.Idx) (q : dot_S2048x43_S43x43_S2048x43_1_0_0_1_n_n.contr.Idx) :
    (dot_S2048x43_S43x43_S2048x43_1_0_0_1_n_n.lhsIdx i q 1).val = (q ⟨0, by decide⟩).val :=
  dot_S2048x43_S43x43_S2048x43_1_0_0_1_n_n.lhsIdx_val_of_single rfl i q
theorem rhs_contracted (i : S2048x43.Idx) (q : dot_S2048x43_S43x43_S2048x43_1_0_0_1_n_n.contr.Idx) :
    (dot_S2048x43_S43x43_S2048x43_1_0_0_1_n_n.rhsIdx i q 0).val = (q ⟨0, by decide⟩).val :=
  dot_S2048x43_S43x43_S2048x43_1_0_0_1_n_n.rhsIdx_val_of_single rfl i q
theorem rhs_col (i : S2048x43.Idx) (q : dot_S2048x43_S43x43_S2048x43_1_0_0_1_n_n.contr.Idx) :
    (dot_S2048x43_S43x43_S2048x43_1_0_0_1_n_n.rhsIdx i q 1).val = (i 1).val := by
  unfold DotDims.rhsIdx
  rw [dif_neg (show ¬(1 : Fin S43x43.rank) ∈ dot_S2048x43_S43x43_S2048x43_1_0_0_1_n_n.rhsBatch by decide), dif_pos (show (1 : Fin S43x43.rank) ∈ dot_S2048x43_S43x43_S2048x43_1_0_0_1_n_n.rhsNonContracting by decide)]
  rfl

/-- A [2048,43]·[43,43] product accumulated into zero, at (r,o): the sum over the contracted feature d of
    l[r,d] · w[d,o]. -/
theorem product_apply (l : FVec Ideal S2048x43 .bf16) (w : FVec Ideal S43x43 .bf16) (r : Fin 2048) (o : Fin 43) :
    matmul dot_S2048x43_S43x43_S2048x43_1_0_0_1_n_n none l w (constant S2048x43 .f32 0x00000000#32) (ix2 r o)
      = ∑ d : Fin 43, l (ix2 r d) * w (ix2 d o) := by
  show FloatOps.matmul dot_S2048x43_S43x43_S2048x43_1_0_0_1_n_n none l w (constant S2048x43 .f32 0x00000000#32) (ix2 r o) = _
  rw [Ideal.matmul_constant_zero_apply, ← Equiv.sum_comp (ValueIdx.contrEquiv1 dot_S2048x43_S43x43_S2048x43_1_0_0_1_n_n 43 rfl rfl).symm]
  refine Finset.sum_congr rfl fun k _ => ?_
  have hk := ValueIdx.contrEquiv1_symm_val dot_S2048x43_S43x43_S2048x43_1_0_0_1_n_n 43 rfl rfl k
  have el : dot_S2048x43_S43x43_S2048x43_1_0_0_1_n_n.lhsIdx (ix2 r o) ((ValueIdx.contrEquiv1 dot_S2048x43_S43x43_S2048x43_1_0_0_1_n_n 43 rfl rfl).symm k) = ix2 r k := funext fun a => Fin.ext (by
    match a with
    | ⟨0, _⟩ => exact lhs_row _ _
    | ⟨1, _⟩ => exact (lhs_contracted _ _).trans hk)
  have er : dot_S2048x43_S43x43_S2048x43_1_0_0_1_n_n.rhsIdx (ix2 r o) ((ValueIdx.contrEquiv1 dot_S2048x43_S43x43_S2048x43_1_0_0_1_n_n 43 rfl rfl).symm k) = ix2 k o := funext fun a => Fin.ext (by
    match a with
    | ⟨0, _⟩ => exact (rhs_contracted _ _).trans hk
    | ⟨1, _⟩ => exact rhs_col _ _)
  rw [el, er]

/-! ## The loaded slab and bias row at an entry -/

/-- A [1,43,43] slab viewed [43,43] (and narrowed) reads (d,o) at (0,d,o). -/
theorem slab_apply (v : Vec Ideal S1x43x43 .f32) (d o : Fin 43) :
    (truncf .bf16 (shapeCast S43x43 v shapeCasts_S1x43x43_S43x43) bitsLt_bf16_f32 : FVec Ideal S43x43 .bf16) (ix2 d o) = v (ix3 0 d o) := by
  show shapeCast S43x43 v shapeCasts_S1x43x43_S43x43 (ix2 d o) = _
  exact shapeCast_apply v shapeCasts_S1x43x43_S43x43 (ix2 d o) (ix3 0 d o)
    (by rewrite [Shape.rowMajor_val_three, Shape.rowMajor_val_two]; show (0 * 43 + d.val) * 43 + o.val = d.val * 43 + o.val; omega)

/-- A [1,43] row viewed [43], viewed [1,43] again and broadcast over the tile's rows reads (r,o) at (0,o). -/
theorem bias_apply (v : Vec Ideal S1x43 .f32) (r : Fin 2048) (o : Fin 43) :
    broadcastTo S2048x43 (shapeCast S1x43 (shapeCast S43 v shapeCasts_S1x43_S43) shapeCasts_S43_S1x43) broadcasts_S1x43_S2048x43 (ix2 r o)
      = v (ix2 0 o) := by
  rw [shapeCast_shapeCast]
  exact broadcastTo_apply v broadcasts_S1x43_S2048x43 (ix2 r o) (ix2 0 o) (fun a => match a with
    | ⟨0, _⟩ => by show (0 : Nat) = if (1 : Nat) = 1 then 0 else r.val; rw [if_pos rfl]
    | ⟨1, _⟩ => by show o.val = if (43 : Nat) = 1 then 0 else o.val; rw [if_neg (by decide)])

/-! ## One gate on a tile -/

/-- Gate pre-activation on a tile at (r,o), from the tile's rows of x and h, the gate's two weight slabs
    [1, d, o] and its two bias rows [1, o]: the two products first, then the biases. -/
def tileGate (xb hb : Vec Ideal S2048x43 .f32) (wx wh : Vec Ideal S1x43x43 .f32) (bxr bhr : Vec Ideal S1x43 .f32)
    (r : Fin 2048) (o : Fin 43) : EReal :=
  (((∑ d : Fin 43, xb (ix2 r d) * wx (ix3 0 d o)) + (∑ d : Fin 43, hb (ix2 r d) * wh (ix3 0 d o))) + bxr (ix2 0 o)) + bhr (ix2 0 o)

/-- The body's vector expression of one gate, at (r,o), is `tileGate`. -/
theorem gate_apply (xb hb : Vec Ideal S2048x43 .f32) (wx wh : Vec Ideal S1x43x43 .f32) (bxr bhr : Vec Ideal S1x43 .f32)
    (r : Fin 2048) (o : Fin 43) :
    addf (addf (addf
        (matmul dot_S2048x43_S43x43_S2048x43_1_0_0_1_n_n none (truncf .bf16 xb bitsLt_bf16_f32 : FVec Ideal S2048x43 .bf16)
          (truncf .bf16 (shapeCast S43x43 wx shapeCasts_S1x43x43_S43x43) bitsLt_bf16_f32 : FVec Ideal S43x43 .bf16) (constant S2048x43 .f32 0x00000000#32))
        (matmul dot_S2048x43_S43x43_S2048x43_1_0_0_1_n_n none (truncf .bf16 hb bitsLt_bf16_f32 : FVec Ideal S2048x43 .bf16)
          (truncf .bf16 (shapeCast S43x43 wh shapeCasts_S1x43x43_S43x43) bitsLt_bf16_f32 : FVec Ideal S43x43 .bf16) (constant S2048x43 .f32 0x00000000#32)))
        (broadcastTo S2048x43 (shapeCast S1x43 (shapeCast S43 bxr shapeCasts_S1x43_S43) shapeCasts_S43_S1x43) broadcasts_S1x43_S2048x43))
        (broadcastTo S2048x43 (shapeCast S1x43 (shapeCast S43 bhr shapeCasts_S1x43_S43) shapeCasts_S43_S1x43) broadcasts_S1x43_S2048x43)
      (ix2 r o) = tileGate xb hb wx wh bxr bhr r o := by
  simp only [addf_apply]
  rw [product_apply, product_apply, bias_apply, bias_apply]
  simp only [slab_apply]
  rfl

/-- A tile's gate is the array's pre-activation, when the tile's rows are the array's rows at `b`, the slabs are
    the gate's weights with the two feature axes swapped (the kernel is handed the transposed weights), and the bias
    rows are the gate's. -/
theorem tileGate_eq_preact (xb hb : Vec Ideal S2048x43 .f32) (wx wh : Vec Ideal S1x43x43 .f32) (bxr bhr : Vec Ideal S1x43 .f32)
    (x h : Rows.Idx → EReal) (Wx : Wts.Idx → EReal) (bx : Bias.Idx → EReal) (Wh : Wts.Idx → EReal) (bh : Bias.Idx → EReal)
    (g : Fin 4) (b : Fin 262144) (r : Fin 2048) (o : Fin 43)
    (hx : ∀ d : Fin 43, xb (ix2 r d) = x (ix2 b d)) (hh : ∀ d : Fin 43, hb (ix2 r d) = h (ix2 b d))
    (hwx : ∀ d : Fin 43, wx (ix3 0 d o) = Wx (ix3 g o d)) (hwh : ∀ d : Fin 43, wh (ix3 0 d o) = Wh (ix3 g o d))
    (hbx : bxr (ix2 0 o) = bx (ix2 g o)) (hbh : bhr (ix2 0 o) = bh (ix2 g o)) :
    tileGate xb hb wx wh bxr bhr r o = preact x h Wx bx Wh bh g b o := by
  unfold tileGate
  have sx : (∑ d : Fin 43, xb (ix2 r d) * wx (ix3 0 d o)) = ∑ d : Fin 43, x (ix2 b d) * Wx (ix3 g o d) :=
    Finset.sum_congr rfl (fun d _ => by rw [hx d, hwx d])
  have sh : (∑ d : Fin 43, hb (ix2 r d) * wh (ix3 0 d o)) = ∑ d : Fin 43, h (ix2 b d) * Wh (ix3 g o d) :=
    Finset.sum_congr rfl (fun d _ => by rw [hh d, hwh d])
  rw [sx, sh, hbx, hbh]
  exact preact_of_products_first x h Wx bx Wh bh g b o

/-! ## The output tile at an entry -/

theorem zeros2 : (![0, 0] : Fin 2 → Nat) = fun _ => 0 := funext fun a => by fin_cases a <;> rfl

/-- The body's one store covers the output tile, and its payload at (r,o) is the gating of the four tile gates and
    the old cell state's entry. -/
theorem out_apply (x0 x1 x2 : Vec Ideal S2048x43 .f32) (x3 : Vec Ideal S4x43x43 .f32) (x4 : Vec Ideal S4x43 .f32)
    (x5 : Vec Ideal S4x43x43 .f32) (x6 : Vec Ideal S4x43 .f32) (r : Fin 2048) (o : Fin 43) :
    out0_7 x0 x1 x2 x3 x4 x5 x6 (ix2 r o)
      = gated (tileGate x0 x1 (View.ld x3 r0_1) (View.ld x5 r0_1) (View.ld x4 r0_2) (View.ld x6 r0_2) r o)
          (tileGate x0 x1 (View.ld x3 r0_3) (View.ld x5 r0_3) (View.ld x4 r0_4) (View.ld x6 r0_4) r o)
          (tileGate x0 x1 (View.ld x3 r0_5) (View.ld x5 r0_5) (View.ld x4 r0_6) (View.ld x6 r0_6) r o)
          (tileGate x0 x1 (View.ld x3 r0_7) (View.ld x5 r0_7) (View.ld x4 r0_8) (View.ld x6 r0_8) r o)
          (x2 (ix2 r o)) := by
  unfold out0_7
  rw [View.canon_unit_zero zeros2]
  simp only [View.ld_unit_zero (S := S2048x43) zeros2]
  rw [← gate_apply x0 x1 (View.ld x3 r0_1) (View.ld x5 r0_1) (View.ld x4 r0_2) (View.ld x6 r0_2) r o,
    ← gate_apply x0 x1 (View.ld x3 r0_3) (View.ld x5 r0_3) (View.ld x4 r0_4) (View.ld x6 r0_4) r o,
    ← gate_apply x0 x1 (View.ld x3 r0_5) (View.ld x5 r0_5) (View.ld x4 r0_6) (View.ld x6 r0_6) r o,
    ← gate_apply x0 x1 (View.ld x3 r0_7) (View.ld x5 r0_7) (View.ld x4 r0_8) (View.ld x6 r0_8) r o]
  rfl

end Cert.Lstm.Kern

end
-- ==== Proof.KernelCell.lean ====
/-
  The kernel's result array after the run is the LSTM cell step `Cert.Lstm.hNew` of the argument arrays.

  The grid has 128 points; point t stages rows [2048·t, 2048·t + 2048) of x, h and c, the whole transposed weights
  and the whole biases, and writes back rows [2048·t, 2048·t + 2048) of the result. So what point t writes back is
  block t of ONE whole-array function, and the 128 blocks tile the 262144 rows: the array ends holding that function.
  The transposed weights the kernel is handed are the host's transpose of the argument weights: reading them at
  (g,d,o) reads the argument at (g,o,d).
-/
import proofs.«103777_j37993280700890_1_alg».proof.Proof.Gen.KernelIdeal.Value
import proofs.«103777_j37993280700890_1_alg».proof.Proof.KernelGate
import Idealize.ShloMosaic.Lib.StableHlo.Run

set_option maxRecDepth 16384

noncomputable section

open scoped BigOperators

namespace Cert.Lstm.Kern

open Cert.KernelIdeal Cert.KernelIdeal.Gen Idealize.ShloMosaic Idealize.ShloMosaic.TcCoe Idealize.ShloMosaic.ValueIdx Cert.Lstm
open Idealize.SL.Sem Idealize.ShloMosaic.StableHlo
open Idealize.ShloMosaic.Pipeline (Dat)

variable (m : (ℓ : Loc nD τ sig) → Buf (Elt Ideal) ℓ) (ρ : Dev nD → PrngReg)

/-! ## Where each window's block sits -/

/-- The printed index maps, decided over the 128 grid points: the four row windows sit at block row t, the four
    parameter windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The transposed weights -/

/-- The x-path weights the kernel stages are the argument's with the two feature axes swapped. -/
theorem wxT_apply (c : Dev nD) (g : Fin 4) (d o : Fin 43) :
    V m c main_v0 (ix3 g d o) = m ((c : Thread nD τ).loc main_arg3) (ix3 g o d) := by
  have e : (V m c main_v0 : S4x43x43.Idx → EReal)
      = transpose S4x43x43 [0, 2, 1] (m ((c : Thread nD τ).loc main_arg3)) transposes_S4x43x43_S4x43x43_0_2_1 := by
    dsimp only [V, hostOps0]; after_results
  refine (congrFun e (ix3 g d o)).trans ?_
  exact transpose_apply [0, 2, 1] _ transposes_S4x43x43_S4x43x43_0_2_1 (ix3 g d o) (ix3 g o d) (fun b => match b with
    | ⟨0, _⟩ => rfl
    | ⟨1, _⟩ => rfl
    | ⟨2, _⟩ => rfl)

/-- The h-path weights likewise. -/
theorem whT_apply (c : Dev nD) (g : Fin 4) (d o : Fin 43) :
    V m c main_v1 (ix3 g d o) = m ((c : Thread nD τ).loc main_arg5) (ix3 g o d) := by
  have e : (V m c main_v1 : S4x43x43.Idx → EReal)
      = transpose S4x43x43 [0, 2, 1] (m ((c : Thread nD τ).loc main_arg5)) transposes_S4x43x43_S4x43x43_0_2_1 := by
    dsimp only [V, hostOps0]; after_results
  refine (congrFun e (ix3 g d o)).trans ?_
  exact transpose_apply [0, 2, 1] _ transposes_S4x43x43_S4x43x43_0_2_1 (ix3 g d o) (ix3 g o d) (fun b => match b with
    | ⟨0, _⟩ => rfl
    | ⟨1, _⟩ => rfl
    | ⟨2, _⟩ => rfl)

/-! ## Each window's block read at an entry -/

/-- Row r of point t's block of x is row 2048·t + r of x. -/
theorem x_rows (c : Dev nD) (t : Fin cfg0.N) (r : Fin 2048) (d : Fin 43) (hb : t.val * 2048 + r.val < 262144) :
    iblk m c 0 t (ix2 r d) = V m c main_arg0 (ix2 ⟨t.val * 2048 + r.val, hb⟩ d) := by
  obtain ⟨e0, e1, -⟩ := idx_facts t
  show V m c main_arg0 (((cfg0.win 0).blk t).view.emb (ix2 r d)) = _
  refine congrArg (V m c main_arg0) (funext fun a => Fin.ext ?_)
  match a with
  | ⟨0, _⟩ => show win0_0.index t (0 : Fin 2) * 2048 + 1 * r.val = t.val * 2048 + r.val; rw [e0]; omega
  | ⟨1, _⟩ => show win0_0.index t (1 : Fin 2) * 43 + 1 * d.val = d.val; rw [e1]; omega

/-- The same for h. -/
theorem h_rows (c : Dev nD) (t : Fin cfg0.N) (r : Fin 2048) (d : Fin 43) (hb : t.val * 2048 + r.val < 262144) :
    iblk m c 1 t (ix2 r d) = V m c main_arg1 (ix2 ⟨t.val * 2048 + r.val, hb⟩ d) := by
  obtain ⟨-, -, e0, e1, -⟩ := idx_facts t
  show V m c main_arg1 (((cfg0.win 1).blk t).view.emb (ix2 r d)) = _
  refine congrArg (V m c main_arg1) (funext fun a => Fin.ext ?_)
  match a with
  | ⟨0, _⟩ => show win0_1.index t (0 : Fin 2) * 2048 + 1 * r.val = t.val * 2048 + r.val; rw [e0]; omega
  | ⟨1, _⟩ => show win0_1.index t (1 : Fin 2) * 43 + 1 * d.val = d.val; rw [e1]; omega

/-- The same for c. -/
theorem c_rows (c : Dev nD) (t : Fin cfg0.N) (r : Fin 2048) (d : Fin 43) (hb : t.val * 2048 + r.val < 262144) :
    iblk m c 2 t (ix2 r d) = V m c main_arg2 (ix2 ⟨t.val * 2048 + r.val, hb⟩ d) := by
  obtain ⟨-, -, -, -, e0, e1, -⟩ := idx_facts t
  show V m c main_arg2 (((cfg0.win 2).blk t).view.emb (ix2 r d)) = _
  refine congrArg (V m c main_arg2) (funext fun a => Fin.ext ?_)
  match a with
  | ⟨0, _⟩ => show win0_2.index t (0 : Fin 2) * 2048 + 1 * r.val = t.val * 2048 + r.val; rw [e0]; omega
  | ⟨1, _⟩ => show win0_2.index t (1 : Fin 2) * 43 + 1 * d.val = d.val; rw [e1]; omega

/-- Every point's block of the transposed x-path weights is the whole array. -/
theorem wx_block (c : Dev nD) (t : Fin cfg0.N) (g : Fin 4) (d o : Fin 43) :
    iblk m c 3 t (ix3 g d o) = V m c main_v0 (ix3 g d o) := by
  obtain ⟨-, -, -, -, -, -, e0, e1, e2, -⟩ := idx_facts t
  show V m c main_v0 (((cfg0.win 3).blk t).view.emb (ix3 g d o)) = _
  refine congrArg (V m c main_v0) (funext fun a => Fin.ext ?_)
  match a with
  | ⟨0, _⟩ => show win0_3.index t (0 : Fin 3) * 4 + 1 * g.val = g.val; rw [e0]; omega
  | ⟨1, _⟩ => show win0_3.index t (1 : Fin 3) * 43 + 1 * d.val = d.val; rw [e1]; omega
  | ⟨2, _⟩ => show win0_3.index t (2 : Fin 3) * 43 + 1 * o.val = o.val; rw [e2]; omega

/-- Every point's block of the x-path biases is the whole array. -/
theorem bx_block (c : Dev nD) (t : Fin cfg0.N) (g : Fin 4) (o : Fin 43) :
    iblk m c 4 t (ix2 g o) = V m c main_arg4 (ix2 g o) := by
  obtain ⟨-, -, -, -, -, -, -, -, -, e0, e1, -⟩ := idx_facts t
  show V m c main_arg4 (((cfg0.win 4).blk t).view.emb (ix2 g o)) = _
  refine congrArg (V m c main_arg4) (funext fun a => Fin.ext ?_)
  match a with
  | ⟨0, _⟩ => show win0_4.index t (0 : Fin 2) * 4 + 1 * g.val = g.val; rw [e0]; omega
  | ⟨1, _⟩ => show win0_4.index t (1 : Fin 2) * 43 + 1 * o.val = o.val; rw [e1]; omega

/-- Every point's block of the transposed h-path weights is the whole array. -/
theorem wh_block (c : Dev nD) (t : Fin cfg0.N) (g : Fin 4) (d o : Fin 43) :
    iblk m c 5 t (ix3 g d o) = V m c main_v1 (ix3 g d o) := by
  obtain ⟨-, -, -, -, -, -, -, -, -, -, -, e0, e1, e2, -⟩ := idx_facts t
  show V m c main_v1 (((cfg0.win 5).blk t).view.emb (ix3 g d o)) = _
  refine congrArg (V m c main_v1) (funext fun a => Fin.ext ?_)
  match a with
  | ⟨0, _⟩ => show win0_5.index t (0 : Fin 3) * 4 + 1 * g.val = g.val; rw [e0]; omega
  | ⟨1, _⟩ => show win0_5.index t (1 : Fin 3) * 43 + 1 * d.val = d.val; rw [e1]; omega
  | ⟨2, _⟩ => show win0_5.index t (2 : Fin 3) * 43 + 1 * o.val = o.val; rw [e2]; omega

/-- Every point's block of the h-path biases is the whole array. -/
theorem bh_block (c : Dev nD) (t : Fin cfg0.N) (g : Fin 4) (o : Fin 43) :
    iblk m c 6 t (ix2 g o) = V m c main_arg6 (ix2 g o) := by
  obtain ⟨-, -, -, -, -, -, -, -, -, -, -, -, -, -, e0, e1, -⟩ := idx_facts t
  show V m c main_arg6 (((cfg0.win 6).blk t).view.emb (ix2 g o)) = _
  refine congrArg (V m c main_arg6) (funext fun a => Fin.ext ?_)
  match a with
  | ⟨0, _⟩ => show win0_6.index t (0 : Fin 2) * 4 + 1 * g.val = g.val; rw [e0]; omega
  | ⟨1, _⟩ => show win0_6.index t (1 : Fin 2) * 43 + 1 * o.val = o.val; rw [e1]; omega

/-! ## The body's loads of one gate's slab and bias row -/

/-- The [1,43,43] load at gate offset g reads (0,d,o) at (g,d,o). -/
theorem slab_load (x : Vec Ideal S4x43x43 .f32) (g : Fin 4) (off : Fin 3 → Nat)
    (inb : ∀ a, off a + S1x43x43.size a ≤ S4x43x43.size a) (h0 : off 0 = g.val) (h1 : off 1 = 0) (h2 : off 2 = 0) (d o : Fin 43) :
    View.ld x (Rect.unit (s := S4x43x43) off S1x43x43.size inb) (ix3 0 d o) = x (ix3 g d o) :=
  congrArg x (funext fun a => Fin.ext (by
    match a with
    | ⟨0, _⟩ => show off 0 + 1 * 0 = g.val; omega
    | ⟨1, _⟩ => show off 1 + 1 * d.val = d.val; omega
    | ⟨2, _⟩ => show off 2 + 1 * o.val = o.val; omega))

/-- The [1,43] load at gate offset g reads (0,o) at (g,o). -/
theorem row_load (x : Vec Ideal S4x43 .f32) (g : Fin 4) (off : Fin 2 → Nat)
    (inb : ∀ a, off a + S1x43.size a ≤ S4x43.size a) (h0 : off 0 = g.val) (h1 : off 1 = 0) (o : Fin 43) :
    View.ld x (Rect.unit (s := S4x43) off S1x43.size inb) (ix2 0 o) = x (ix2 g o) :=
  congrArg x (funext fun a => Fin.ext (by
    match a with
    | ⟨0, _⟩ => show off 0 + 1 * 0 = g.val; omega
    | ⟨1, _⟩ => show off 1 + 1 * o.val = o.val; omega))

/-! ## What point t leaves at (r,o) -/

/-- The argument arrays as the region finds them, in the cell step's order. -/
abbrev cellOf (c : Dev nD) : Rows.Idx → EReal :=
  hNew (V m c main_arg0) (V m c main_arg1) (V m c main_arg2) (m ((c : Thread nD τ).loc main_arg3)) (V m c main_arg4)
    (m ((c : Thread nD τ).loc main_arg5)) (V m c main_arg6)

/-- One gate on point t's tile is the arrays' pre-activation at row 2048·t + r. -/
theorem gate_at (c : Dev nD) (t : Fin cfg0.N) (r : Fin 2048) (o : Fin 43) (hb : t.val * 2048 + r.val < 262144) (g : Fin 4)
    (offw : Fin 3 → Nat) (inbw : ∀ a, offw a + S1x43x43.size a ≤ S4x43x43.size a)
    (offb : Fin 2 → Nat) (inbb : ∀ a, offb a + S1x43.size a ≤ S4x43.size a)
    (hw0 : offw 0 = g.val) (hw1 : offw 1 = 0) (hw2 : offw 2 = 0) (hb0 : offb 0 = g.val) (hb1 : offb 1 = 0) :
    tileGate (iblk m c 0 t) (iblk m c 1 t)
        (View.ld (iblk m c 3 t) (Rect.unit (s := S4x43x43) offw S1x43x43.size inbw))
        (View.ld (iblk m c 5 t) (Rect.unit (s := S4x43x43) offw S1x43x43.size inbw))
        (View.ld (iblk m c 4 t) (Rect.unit (s := S4x43) offb S1x43.size inbb))
        (View.ld (iblk m c 6 t) (Rect.unit (s := S4x43) offb S1x43.size inbb)) r o
      = preact (V m c main_arg0) (V m c main_arg1) (m ((c : Thread nD τ).loc main_arg3)) (V m c main_arg4)
          (m ((c : Thread nD τ).loc main_arg5)) (V m c main_arg6) g ⟨t.val * 2048 + r.val, hb⟩ o :=
  tileGate_eq_preact (iblk m c 0 t) (iblk m c 1 t)
    (View.ld (iblk m c 3 t) (Rect.unit (s := S4x43x43) offw S1x43x43.size inbw))
    (View.ld (iblk m c 5 t) (Rect.unit (s := S4x43x43) offw S1x43x43.size inbw))
    (View.ld (iblk m c 4 t) (Rect.unit (s := S4x43) offb S1x43.size inbb))
    (View.ld (iblk m c 6 t) (Rect.unit (s := S4x43) offb S1x43.size inbb))
    (V m c main_arg0) (V m c main_arg1) (m ((c : Thread nD τ).loc main_arg3)) (V m c main_arg4)
    (m ((c : Thread nD τ).loc main_arg5)) (V m c main_arg6) g ⟨t.val * 2048 + r.val, hb⟩ r o
    (fun d => x_rows m c t r d hb) (fun d => h_rows m c t r d hb)
    (fun d => (slab_load (iblk m c 3 t) g offw inbw hw0 hw1 hw2 d o).trans ((wx_block m c t g d o).trans (wxT_apply m c g d o)))
    (fun d => (slab_load (iblk m c 5 t) g offw inbw hw0 hw1 hw2 d o).trans ((wh_block m c t g d o).trans (whT_apply m c g d o)))
    ((row_load (iblk m c 4 t) g offb inbb hb0 hb1 o).trans (bx_block m c t g o))
    ((row_load (iblk m c 6 t) g offb inbb hb0 hb1 o).trans (bh_block m c t g o))

/-- What the body leaves at (r,o) of point t's output tile is the cell step at row 2048·t + r. -/
theorem out_at (c : Dev nD) (t : Fin cfg0.N) (r : Fin 2048) (o : Fin 43) (hb : t.val * 2048 + r.val < 262144) :
    out0_7 (iblk m c 0 t) (iblk m c 1 t) (iblk m c 2 t) (iblk m c 3 t) (iblk m c 4 t) (iblk m c 5 t) (iblk m c 6 t) (ix2 r o)
      = cellOf m c (ix2 ⟨t.val * 2048 + r.val, hb⟩ o) := by
  refine (out_apply (iblk m c 0 t) (iblk m c 1 t) (iblk m c 2 t) (iblk m c 3 t) (iblk m c 4 t) (iblk m c 5 t) (iblk m c 6 t) r o).trans ?_
  have g0 := gate_at m c t r o hb 0 ![0, 0, 0] inb_S4x43x43_S1x43x43_0_0_0 ![0, 0] inb_S4x43_S1x43_0_0 rfl rfl rfl rfl rfl
  have g1 := gate_at m c t r o hb 1 ![1, 0, 0] inb_S4x43x43_S1x43x43_1_0_0 ![1, 0] inb_S4x43_S1x43_1_0 rfl rfl rfl rfl rfl
  have g2 := gate_at m c t r o hb 2 ![2, 0, 0] inb_S4x43x43_S1x43x43_2_0_0 ![2, 0] inb_S4x43_S1x43_2_0 rfl rfl rfl rfl rfl
  have g3 := gate_at m c t r o hb 3 ![3, 0, 0] inb_S4x43x43_S1x43x43_3_0_0 ![3, 0] inb_S4x43_S1x43_3_0 rfl rfl rfl rfl rfl
  have cc := c_rows m c t r o hb
  exact congr (congr (congr (congr (congrArg gated g0) g1) g2) g3) cc

/-! ## From blocks to the array -/

/-- WHAT POINT t WRITES BACK is block t of the cell step of the argument arrays. -/
theorem flushed_eq (c : Dev nD) (t : Fin cfg0.N) :
    (dats m 0 c).flushed 7 t = ((cfg0.win 7).blk t).view.read (Elt Ideal) (cellOf m c) := by
  rw [Cert.KernelIdeal.Value.flushed7]
  have ht : t.val < 128 := t.isLt
  obtain ⟨-, -, -, -, -, -, -, -, -, -, -, -, -, -, -, -, e0, e1⟩ := idx_facts t
  funext j
  obtain ⟨r, o, rfl⟩ : ∃ (r : Fin 2048) (o : Fin 43), j = ix2 r o := ⟨j 0, j 1, eq_ix2 j⟩
  have hb : t.val * 2048 + r.val < 262144 := by have := r.isLt; omega
  show out0_7 (iblk m c 0 t) (iblk m c 1 t) (iblk m c 2 t) (iblk m c 3 t) (iblk m c 4 t) (iblk m c 5 t) (iblk m c 6 t) (ix2 r o)
    = cellOf m c (((cfg0.win 7).blk t).view.emb (ix2 r o))
  refine (out_at m c t r o hb).trans (congrArg (cellOf m c) (funext fun a => Fin.ext ?_))
  match a with
  | ⟨0, _⟩ => show t.val * 2048 + r.val = win0_7.index t (0 : Fin 2) * 2048 + 1 * r.val; rw [e0]; omega
  | ⟨1, _⟩ => show o.val = win0_7.index t (1 : Fin 2) * 43 + 1 * o.val; rw [e1]; omega

/-- An index of the array is in point t's block iff each coordinate is in the block's range on its axis. -/
theorem mem_blk (t : Fin cfg0.N) (i : S262144x43.Idx) :
    i ∈ ((cfg0.win 7).blk t).view.set ↔ ∀ a : Fin 2, win0_7.index t a * S2048x43.size a ≤ (i a).val ∧ (i a).val < win0_7.index t a * S2048x43.size a + S2048x43.size a := by
  show i ∈ ((View.whole main_v2).slice (win0_7.rect t)).set ↔ _
  rw [View.set_slice_whole, Rect.mem_set_unit]
  exact Iff.rfl

/-- The 128 blocks tile the rows: row b lies in the block of point b / 2048. -/
theorem cover (i : S262144x43.Idx) : ∃ t : Fin cfg0.N, (cfg0.win 7).flush t = true ∧ i ∈ ((cfg0.win 7).blk t).view.set := by
  have hi0 : (i 0).val < 262144 := (i 0).isLt
  have hi1 : (i 1).val < 43 := (i 1).isLt
  have hlt : (i 0).val / 2048 < 128 := by omega
  let t : Fin cfg0.N := ⟨(i 0).val / 2048, hlt⟩
  obtain ⟨-, -, -, -, -, -, -, -, -, -, -, -, -, -, -, -, e0, e1⟩ := idx_facts t
  have e0' : win0_7.index t (0 : Fin 2) = (i 0).val / 2048 := e0
  refine ⟨t, flush0_7 t, ?_⟩
  rw [mem_blk]
  intro a
  match a with
  | ⟨0, _⟩ => show win0_7.index t (0 : Fin 2) * 2048 ≤ (i 0).val ∧ (i 0).val < win0_7.index t (0 : Fin 2) * 2048 + 2048; rw [e0']; omega
  | ⟨1, _⟩ => show win0_7.index t (1 : Fin 2) * 43 ≤ (i 1).val ∧ (i 1).val < win0_7.index t (1 : Fin 2) * 43 + 43; rw [e1]; omega

/-- THE ARRAY after the run: the cell step of the arguments as launched. -/
theorem final (c : Dev nD) : (dats m 0 c).arrAt 7 cfg0.N
    = hNew (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [(dats m 0 c).arrAt_eq_of_cover 7 (cellOf m c) (fun t _ => flushed_eq m c t) cover]
  show hNew (V m c main_arg0) (V m c main_arg1) (V m c main_arg2) _ (V m c main_arg4) _ (V m c main_arg6) = _
  rw [V_main_arg0, V_main_arg1, V_main_arg2, V_main_arg4, V_main_arg6]

/-- The kernel's run re-posted: the result array is the cell step of the arguments, the arguments unchanged. -/
theorem run : θ_run defs (onTc (τ := τ) (main (F := Ideal))) ⟨m, fun _ => 0, ρ⟩ fun r => ∀ c : Dev nD,
      r.2.mem ((c : Thread nD τ).loc main_v2)
        = hNew (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.Lstm.Kern

end
-- ==== Proof.RefCell.lean ====
/-
  The reference's result, read index by index, is the LSTM cell step `Cert.Lstm.hNew` of its seven arguments.

  The reference stacks the four gates: two batched products `Σ_d W[g,o,d] · v[b,d]` (computed as [g,o,b], then
  transposed to [g,b,o]), each plus its bias broadcast over the rows, then added: that is `preact` at (g,b,o).
  Gate g is then the slice [g:g+1] reshaped to [b,o] — the same entry, since row-major position (b·43+o) splits
  back into (b,o) — and the gating applies the logistic function spelt as 1/(1+e^(-p)) and tanh, pointwise.
-/
import proofs.«103777_j37993280700890_1_alg».proof.Proof.Gen.ReferenceIdeal.Read
import proofs.«103777_j37993280700890_1_alg».proof.Proof.Cell
import Idealize.ShloMosaic.Lib.IdealHost

noncomputable section

open scoped BigOperators

namespace Cert.Lstm.Ref

open Cert.ReferenceIdeal Cert.ReferenceIdeal.Read Idealize.ShloMosaic Idealize.ShloMosaic.ValueIdx Cert.Lstm

variable (x0 x1 x2 : (⟨S262144x43, .f32⟩ : BufTy).Contents (Elt Ideal)) (x3 : (⟨S4x43x43, .f32⟩ : BufTy).Contents (Elt Ideal))
  (x4 : (⟨S4x43, .f32⟩ : BufTy).Contents (Elt Ideal)) (x5 : (⟨S4x43x43, .f32⟩ : BufTy).Contents (Elt Ideal))
  (x6 : (⟨S4x43, .f32⟩ : BufTy).Contents (Elt Ideal))

/-- The stacked pre-activations [gate, row, feature] at an entry: the x-path's product and bias plus the h-path's. -/
theorem stacked_preact (g : Fin 4) (b : Fin 262144) (o : Fin 43) :
    val_main_v10 (F := Ideal) x0 x1 x3 x4 x5 x6 (ix3 g b o) = preact x0 x1 x3 x4 x5 x6 g b o := by
  rw [val_main_v10_apply, val_main_v4_apply, val_main_v9_apply, val_main_v1_apply, val_main_v3_apply, val_main_v2_apply,
    val_main_v0_apply, val_main_v6_apply, val_main_v8_apply, val_main_v7_apply, val_main_v5_apply]
  have wx : ∀ k : Fin 43, lidx_main_v0 (idx_main_v1 (ix3 g b o)) k = ix3 g o k := fun k => funext fun a => by
    match a with | ⟨0, _⟩ => rfl | ⟨1, _⟩ => rfl | ⟨2, _⟩ => rfl
  have xr : ∀ k : Fin 43, ridx_main_v0 (idx_main_v1 (ix3 g b o)) k = ix2 b k := fun k => funext fun a => by
    match a with | ⟨0, _⟩ => rfl | ⟨1, _⟩ => rfl
  have wh : ∀ k : Fin 43, lidx_main_v5 (idx_main_v6 (ix3 g b o)) k = ix3 g o k := fun k => funext fun a => by
    match a with | ⟨0, _⟩ => rfl | ⟨1, _⟩ => rfl | ⟨2, _⟩ => rfl
  have hr : ∀ k : Fin 43, ridx_main_v5 (idx_main_v6 (ix3 g b o)) k = ix2 b k := fun k => funext fun a => by
    match a with | ⟨0, _⟩ => rfl | ⟨1, _⟩ => rfl
  have bxi : idx_main_v2 (idx_main_v3 (ix3 g b o)) = ix2 g o := funext fun a => by
    match a with | ⟨0, _⟩ => rfl | ⟨1, _⟩ => rfl
  have bhi : idx_main_v7 (idx_main_v8 (ix3 g b o)) = ix2 g o := funext fun a => by
    match a with | ⟨0, _⟩ => rfl | ⟨1, _⟩ => rfl
  simp only [wx, xr, wh, hr, bxi, bhi]
  rfl

/-- Slice [0:1] of the stack, reshaped to [row, feature], is gate 0's entry. -/
theorem gate0 (b : Fin 262144) (o : Fin 43) :
    val_main_v12 (F := Ideal) x0 x1 x3 x4 x5 x6 (ix2 b o) = val_main_v10 (F := Ideal) x0 x1 x3 x4 x5 x6 (ix3 0 b o) := by
  rw [val_main_v12_apply, val_main_v11_apply]
  have hb := b.isLt
  have ho := o.isLt
  exact congrArg _ (funext fun a => Fin.ext (by
    match a with
    | ⟨0, _⟩ => rfl
    | ⟨1, _⟩ => show (b.val * 43 + o.val) / 43 % 262144 = b.val; omega
    | ⟨2, _⟩ => show (b.val * 43 + o.val) % 43 = o.val; omega))

/-- Slice [1:2], reshaped, is gate 1's entry. -/
theorem gate1 (b : Fin 262144) (o : Fin 43) :
    val_main_v20 (F := Ideal) x0 x1 x3 x4 x5 x6 (ix2 b o) = val_main_v10 (F := Ideal) x0 x1 x3 x4 x5 x6 (ix3 1 b o) := by
  rw [val_main_v20_apply, val_main_v19_apply]
  have hb := b.isLt
  have ho := o.isLt
  exact congrArg _ (funext fun a => Fin.ext (by
    match a with
    | ⟨0, _⟩ => rfl
    | ⟨1, _⟩ => show (b.val * 43 + o.val) / 43 % 262144 = b.val; omega
    | ⟨2, _⟩ => show (b.val * 43 + o.val) % 43 = o.val; omega))

/-- Slice [2:3], reshaped, is gate 2's entry. -/
theorem gate2 (b : Fin 262144) (o : Fin 43) :
    val_main_v28 (F := Ideal) x0 x1 x3 x4 x5 x6 (ix2 b o) = val_main_v10 (F := Ideal) x0 x1 x3 x4 x5 x6 (ix3 2 b o) := by
  rw [val_main_v28_apply, val_main_v27_apply]
  have hb := b.isLt
  have ho := o.isLt
  exact congrArg _ (funext fun a => Fin.ext (by
    match a with
    | ⟨0, _⟩ => rfl
    | ⟨1, _⟩ => show (b.val * 43 + o.val) / 43 % 262144 = b.val; omega
    | ⟨2, _⟩ => show (b.val * 43 + o.val) % 43 = o.val; omega))

/-- Slice [3:4], reshaped, is gate 3's entry. -/
theorem gate3 (b : Fin 262144) (o : Fin 43) :
    val_main_v31 (F := Ideal) x0 x1 x3 x4 x5 x6 (ix2 b o) = val_main_v10 (F := Ideal) x0 x1 x3 x4 x5 x6 (ix3 3 b o) := by
  rw [val_main_v31_apply, val_main_v30_apply]
  have hb := b.isLt
  have ho := o.isLt
  exact congrArg _ (funext fun a => Fin.ext (by
    match a with
    | ⟨0, _⟩ => rfl
    | ⟨1, _⟩ => show (b.val * 43 + o.val) / 43 % 262144 = b.val; omega
    | ⟨2, _⟩ => show (b.val * 43 + o.val) % 43 = o.val; omega))

/-- The reference's result is the cell step: at (b,o), the gating of the four pre-activations and c[b,o], the
    logistic function arriving as 1/(1+e^(-p)) with the two ones the f32 word of 1. -/
theorem result_is_hNew : val_main_v42 (F := Ideal) x0 x1 x2 x3 x4 x5 x6 = hNew x0 x1 x2 x3 x4 x5 x6 := by
  funext i
  obtain ⟨b, o, rfl⟩ : ∃ (b : Fin 262144) (o : Fin 43), i = ix2 b o := ⟨i 0, i 1, eq_ix2 i⟩
  simp only [val_main_v42_apply, val_main_v41_apply, val_main_v40_apply, val_main_v39_apply, val_main_v38_apply,
    val_main_v37_apply, val_main_v36_apply, val_main_v35_apply, val_main_v34_apply, val_main_v33_apply, val_main_v32_apply,
    val_main_v29_apply, val_main_v26_apply, val_main_v25_apply, val_main_v24_apply, val_main_v23_apply, val_main_v22_apply,
    val_main_v21_apply, val_main_v18_apply, val_main_v17_apply, val_main_v16_apply, val_main_v15_apply, val_main_v14_apply,
    val_main_v13_apply, val_main_cst_apply, val_main_cst_0_apply, val_main_cst_1_apply, val_main_cst_2_apply,
    val_main_cst_3_apply, val_main_cst_4_apply]
  rw [gate0, gate1, gate2, gate3, stacked_preact, stacked_preact, stacked_preact, stacked_preact]
  simp only [Ideal.mulf_def, Ideal.addf_def, Ideal.hostDivf_def, Ideal.hostUnary_exp_def, Ideal.hostUnary_tanh_def,
    Ideal.hostNegf_def, Ideal.negf_def, Ideal.ofBits_def, Ideal.ofBits_one_f32]
  rfl

end Cert.Lstm.Ref

end
-- ==== Proof.lean ====
/-
  The certificate of the fused LSTM cell kernel against its jnp reference, over the extended reals.

  Both programs compute, for 262144 rows of 43 features and four stacked gates,
      h'[b,o] = σ(p₃) · tanh (σ(p₁) · c[b,o] + σ(p₀) · tanh p₂),   p_g = Σ_d Wx[g,o,d]·x[b,d] + bx[g,o] + Σ_d Wh[g,o,d]·h[b,d] + bh[g,o]
  (`Cert.Lstm.hNew`, Proof/Cell.lean). The reference forms the two batched products as [gate, feature, row] and
  transposes, adds each path's bias, then the two paths, slices the gates apart and applies the logistic function as
  1/(1+e^(-p)) (Proof/RefCell.lean). The kernel walks the rows in 128 tiles of 2048; on each tile it multiplies the
  rows by the transposed weights (bf16 operands: the identity on the extended reals), adds the two products first
  and the two biases after, and gates with the logistic operation itself (Proof/KernelGate.lean); the tiles cover
  the rows, so the result array is the same function (Proof/KernelCell.lean). The two arrangements of the
  pre-activation agree because + and · on the extended reals are commutative and associative; nothing needs the
  inputs to be finite. The idealization rewrote nothing, so its side of the claim is trivial.
-/
import proofs.«103777_j37993280700890_1_alg».proof.Defs
import proofs.«103777_j37993280700890_1_alg».proof.Proof.Gen.Kernel
import proofs.«103777_j37993280700890_1_alg».proof.Proof.Gen.Kernel.Skeleton
import proofs.«103777_j37993280700890_1_alg».proof.Proof.Gen.Kernel.Launch
import proofs.«103777_j37993280700890_1_alg».proof.Proof.Gen.Kernel.Points
import proofs.«103777_j37993280700890_1_alg».proof.Proof.Gen.Kernel.Frame
import proofs.«103777_j37993280700890_1_alg».proof.Proof.Gen.KernelIdeal
import proofs.«103777_j37993280700890_1_alg».proof.Proof.Gen.KernelIdeal.Skeleton
import proofs.«103777_j37993280700890_1_alg».proof.Proof.Gen.KernelIdeal.Launch
import proofs.«103777_j37993280700890_1_alg».proof.Proof.Gen.KernelIdeal.Points
import proofs.«103777_j37993280700890_1_alg».proof.Proof.Gen.KernelIdeal.Frame
import proofs.«103777_j37993280700890_1_alg».proof.Proof.Gen.ReferenceIdeal
import proofs.«103777_j37993280700890_1_alg».proof.Proof.Gen.Pre_finite_inputs
import proofs.«103777_j37993280700890_1_alg».proof.Proof.Gen.KernelIdeal.Value
import proofs.«103777_j37993280700890_1_alg».proof.Proof.Gen.ReferenceIdeal.Run
import proofs.«103777_j37993280700890_1_alg».proof.Proof.Gen.ReferenceIdeal.Read
import proofs.«103777_j37993280700890_1_alg».proof.Proof.KernelCell
import proofs.«103777_j37993280700890_1_alg».proof.Proof.RefCell
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories agreeing on the seven arguments both programs end with the cell step `hNew` of them. -/
theorem algebraic : Cert.algebraic_KernelIdeal_ReferenceIdeal := by
  intro m ρ m' ρ' _ hagree
  refine ⟨_, Cert.Lstm.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.Lstm.Ref.result_is_hNew]
  obtain ⟨a0, a1, a2, a3, a4, a5, a6⟩ := hagree c
  rw [a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
